-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S128x128x512 : Shape := ⟨3, ![128, 128, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S128x128x512 : S_.BroadcastsInDim S128x128x512 (![] : Fin 0 → Fin S128x128x512.rank)
  reducesTo_S128x128x512_S_d0_1_2 : S128x128x512.ReducesTo [0, 1, 2] S_

variable [Facts]

def fn {F : FTy → Type} [FloatOps F] (main_arg0 : FVec F S2048x512 .f32) (main_arg1 : FVec F S128x128x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S128x128x512 .f32 := Host.absf main_arg1
  let main_cst_0 : FVec F S_ .f32 := constant S_ .f32 0x7F800000#32
  let main_v5 : FVec F S128x128x512 .f32 := broadcastInDim S128x128x512 ![] bcast_S_S128x128x512 main_cst_0
  let main_v6 : IVec S128x128x512 1 := cmpf .olt main_v4 main_v5
  let main_c_1 : IVec S_ 1 := constantI S_ 1 1#1
  let main_v7 : IVec S_ 1 := (fun x v => Host.reduce IntOp.andi x v reducesTo_S128x128x512_S_d0_1_2 h_S_) main_v6 main_c_1
  let main_v8 : IVec S_ 1 := andi main_v3 main_v7
  main_v8
-- ==== Kernel.lean ====
abbrev S2048x512 : Shape := ⟨2, ![2048, 512]⟩
abbrev S128x128x512 : Shape := ⟨3, ![128, 128, 512]⟩
abbrev S16384x512 : Shape := ⟨2, ![16384, 512]⟩
abbrev S2048x16384 : Shape := ⟨2, ![2048, 16384]⟩
abbrev S256x512 : Shape := ⟨2, ![256, 512]⟩
abbrev S4096x512 : Shape := ⟨2, ![4096, 512]⟩
abbrev S256x4096 : Shape := ⟨2, ![256, 4096]⟩
abbrev S256 : Shape := ⟨1, ![256]⟩
abbrev S256x1 : Shape := ⟨2, ![256, 1]⟩
abbrev S1x512 : Shape := ⟨2, ![1, 512]⟩
abbrev S1x4096 : Shape := ⟨2, ![1, 4096]⟩
abbrev S512x4096 : Shape := ⟨2, ![512, 4096]⟩
abbrev S2048x128x128 : Shape := ⟨3, ![2048, 128, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S128x128x512, .f32⟩
  | .hbm, ⟨2, _⟩ => ⟨S16384x512, .f32⟩
  | .hbm, ⟨3, _⟩ => ⟨S2048x16384, .f32⟩
  | .hbm, ⟨4, _⟩ => ⟨S2048x128x128, .f32⟩
  | .local _ .vmem, ⟨0, _⟩ => ⟨S256x512, .f32⟩
  | .local _ .vmem, ⟨1, _⟩ => ⟨S256x512, .f32⟩
  | .local _ .vmem, ⟨2, _⟩ => ⟨S4096x512, .f32⟩
  | .local _ .vmem, ⟨3, _⟩ => ⟨S4096x512, .f32⟩
  | .local _ .vmem, ⟨4, _⟩ => ⟨S256x4096, .f32⟩
  | .local _ .vmem, ⟨5, _⟩ => ⟨S256x4096, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S128x128x512_S16384x512 : S128x128x512.ShapeCasts S16384x512
  inb_S256x512_S256x512_0_0 : ∀ a, (![0, 0] : Fin 2 → Nat) a + S256x512.size a ≤ S256x512.size a
  h_S256x512 : 0 < S256x512.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S256x512_S256 : S256x512.Reduces [1] S256
  shapeCasts_S256_S256x1 : S256.ShapeCasts S256x1
  bitsLt_bf16_f32 : FTy.bits .bf16 < FTy.bits .f32
  transposes_S4096x512_p1_0_S512x4096 : S4096x512.Transposes [1, 0] S512x4096
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S2048x16384_S2048x128x128 : S2048x16384.ShapeCasts S2048x128x128
  dot_S1x512_S4096x512_S1x4096_1_1_0_0_n_n_wf : DotDims.WF S1x512 S4096x512 S1x4096 [1] [1] [0] [0] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x512.size a
  hwx0_0 : ∀ i : grid0.Coords, EltTy.bits .f32 = 32 ∨ (Rect.block (s := S2048x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S16384x512.size a
  hwx0_1 : ∀ i : grid0.Coords, EltTy.bits .f32 = 32 ∨ (Rect.block (s := S16384x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S2048x16384.size a
  hwx0_2 : ∀ i : grid0.Coords, EltTy.bits .f32 = 32 ∨ (Rect.block (s := S2048x16384) S256x4096.size (cc0_transform_2 i) (hinb0_2 i)).WholeWords (EltTy.packing .f32)

variable [Facts₀]

def dot_S1x512_S4096x512_S1x4096_1_1_0_0_n_n : DotDims S1x512 S4096x512 S1x4096 where
  lhsContracting := [1]
  rhsContracting := [1]
  lhsNonContracting := [0]
  rhsNonContracting := [0]
  lhsBatch := []
  rhsBatch := []
  wf := dot_S1x512_S4096x512_S1x4096_1_1_0_0_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x512 : Shape := ⟨2, ![2048, 512]⟩
abbrev S128x128x512 : Shape := ⟨3, ![128, 128, 512]⟩
abbrev S16384x512 : Shape := ⟨2, ![16384, 512]⟩
abbrev S_ : Shape := ⟨0, ![]⟩
abbrev S2048 : Shape := ⟨1, ![2048]⟩
abbrev S16384 : Shape := ⟨1, ![16384]⟩
abbrev S2048x16384 : Shape := ⟨2, ![2048, 16384]⟩
abbrev S2048x1 : Shape := ⟨2, ![2048, 1]⟩
abbrev S1x16384 : Shape := ⟨2, ![1, 16384]⟩
abbrev S2048x128x128 : Shape := ⟨3, ![2048, 128, 128]⟩

abbrev nBuf : Space → Nat
  | .hbm => 35
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S128x128x512, .f32⟩
  | .hbm, ⟨2, _⟩ => ⟨S16384x512, .f32⟩
  | .hbm, ⟨3, _⟩ => ⟨S2048x512, .f32⟩
  | .hbm, ⟨4, _⟩ => ⟨S_, .f32⟩
  | .hbm, ⟨5, _⟩ => ⟨S2048, .f32⟩
  | .hbm, ⟨6, _⟩ => ⟨S16384x512, .f32⟩
  | .hbm, ⟨7, _⟩ => ⟨S_, .f32⟩
  | .hbm, ⟨8, _⟩ => ⟨S16384, .f32⟩
  | .hbm, ⟨9, _⟩ => ⟨S2048x16384, .f32⟩
  | .hbm, ⟨10, _⟩ => ⟨S2048x1, .f32⟩
  | .hbm, ⟨11, _⟩ => ⟨S1x16384, .f32⟩
  | .hbm, ⟨12, _⟩ => ⟨S2048x16384, .f32⟩
  | .hbm, ⟨13, _⟩ => ⟨S2048x16384, .f32⟩
  | .hbm, ⟨14, _⟩ => ⟨S2048x16384, .f32⟩
  | .hbm, ⟨15, _⟩ => ⟨S_, .f32⟩
  | .hbm, ⟨16, _⟩ => ⟨S2048x16384, .f32⟩
  | .hbm, ⟨17, _⟩ => ⟨S2048x16384, .f32⟩
  | .hbm, ⟨18, _⟩ => ⟨S2048x16384, .f32⟩
  | .hbm, ⟨19, _⟩ => ⟨S_, .f32⟩
  | .hbm, ⟨20, _⟩ => ⟨S2048x16384, .f32⟩
  | .hbm, ⟨21, _⟩ => ⟨S2048x16384, .f32⟩
  | .hbm, ⟨22, _⟩ => ⟨S2048x16384, .f32⟩
  | .hbm, ⟨23, _⟩ => ⟨S_, .f32⟩
  | .hbm, ⟨24, _⟩ => ⟨S2048x16384, .f32⟩
  | .hbm, ⟨25, _⟩ => ⟨S2048x16384, .f32⟩
  | .hbm, ⟨26, _⟩ => ⟨S2048x16384, .f32⟩
  | .hbm, ⟨27, _⟩ => ⟨S_, .f32⟩
  | .hbm, ⟨28, _⟩ => ⟨S2048x16384, .f32⟩
  | .hbm, ⟨29, _⟩ => ⟨S2048x16384, .f32⟩
  | .hbm, ⟨30, _⟩ => ⟨S_, .f32⟩
  | .hbm, ⟨31, _⟩ => ⟨S2048x16384, .f32⟩
  | .hbm, ⟨32, _⟩ => ⟨S2048x16384, .f32⟩
  | .hbm, ⟨33, _⟩ => ⟨S2048x16384, .f32⟩
  | .hbm, ⟨34, _⟩ => ⟨S2048x128x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  shapeCasts_S128x128x512_S16384x512 : S128x128x512.ShapeCasts S16384x512
  reducesTo_S2048x512_S2048_d1 : S2048x512.ReducesTo [1] S2048
  h_S_ : 0 < S_.numel
  reducesTo_S16384x512_S16384_d1 : S16384x512.ReducesTo [1] S16384
  bcast_S2048_S2048x1_0 : S2048.BroadcastsInDim S2048x1 (![0] : Fin 1 → Fin S2048x1.rank)
  bcast_S16384_S1x16384_1 : S16384.BroadcastsInDim S1x16384 (![1] : Fin 1 → Fin S1x16384.rank)
  bcast_S2048x1_S2048x16384_0_1 : S2048x1.BroadcastsInDim S2048x16384 (![0, 1] : Fin 2 → Fin S2048x16384.rank)
  bcast_S1x16384_S2048x16384_0_1 : S1x16384.BroadcastsInDim S2048x16384 (![0, 1] : Fin 2 → Fin S2048x16384.rank)
  bcast_S_S2048x16384 : S_.BroadcastsInDim S2048x16384 (![] : Fin 0 → Fin S2048x16384.rank)
  shapeCasts_S2048x16384_S2048x128x128 : S2048x16384.ShapeCasts S2048x128x128
  dot_S2048x512_S16384x512_S2048x16384_1_1_0_0_n_n_wf : DotDims.WF S2048x512 S16384x512 S2048x16384 [1] [1] [0] [0] [] []

variable [Facts₀]

def dot_S2048x512_S16384x512_S2048x16384_1_1_0_0_n_n : DotDims S2048x512 S16384x512 S2048x16384 where
  lhsContracting := [1]
  rhsContracting := [1]
  lhsNonContracting := [0]
  rhsNonContracting := [0]
  lhsBatch := []
  rhsBatch := []
  wf := dot_S2048x512_S16384x512_S2048x16384_1_1_0_0_n_n_wf

class Facts : Prop extends Facts₀ where

variable [Facts]
-- ==== Proof.Spec.lean ====
/-
  The correntropy-induced distance between a sample row and a codebook row, as one function of the two rows
  over the extended reals:

      cim x w = sqrt (1 - exp (-(max (‖x‖² + ‖w‖² - 2·⟨x, w⟩) 0) / 2) + ε),

  with ‖x‖² = Σ_k x_k², ‖w‖² = Σ_k w_k², ⟨x, w⟩ = Σ_k x_k·w_k over the 512 features. The constants 1, 2, 0 and ε
  stay the f32 words both programs spell; only the words whose VALUE a step of the comparison needs are
  evaluated here (0, 1 as a bf16 word, 1/2 and 2). The whole result is the [2048, 16384] array of cim at
  (sample b, codebook entry n).

  The one scalar law the comparison needs: negating by subtracting from zero and then halving by the factor 1/2
  is the negation divided by 2, on every extended real (no finiteness is used: 0 - y = -y always, and the
  quotient by the real 2 IS the product with 1/2).
-/
import Idealize.ShloMosaic.PureOps.Ideal
import Idealize.ShloMosaic.PureOps.Ideal.Laws
import Idealize.ShloMosaic.Lib.ValueIdx

noncomputable section

open scoped BigOperators

namespace Cert.Cim

open Idealize.ShloMosaic Idealize.ShloMosaic.ValueIdx

/-- The f32 word of `0.5` denotes the real 1/2. -/
theorem half_word : Ideal.ofBits .f32 0x3F000000#32 = ((1 / 2 : ℝ) : EReal) := by
  simp [Ideal.ofBits, Ideal.ieee, -EReal.coe_mul]; norm_num

/-- The f32 word of `2.0` denotes the real 2. -/
theorem two_word : Ideal.ofBits .f32 0x40000000#32 = ((2 : ℝ) : EReal) := by
  simp [Ideal.ofBits, Ideal.ieee, -EReal.coe_mul]; norm_num

/-- The bf16 word of `1.0` denotes 1. -/
theorem one_bf16_word : Ideal.ofBits .bf16 0x3F80#16 = 1 := by
  simp [Ideal.ofBits, Ideal.ieee, -EReal.coe_mul]; norm_num

/-- Subtracting from zero and multiplying by 1/2 is negating and dividing by 2. -/
theorem zero_sub_mul_half (y : EReal) :
    (Ideal.ofBits .f32 0x00000000#32 - y) * Ideal.ofBits .f32 0x3F000000#32
      = Ideal.div (-y) (Ideal.ofBits .f32 0x40000000#32) := by
  rw [Ideal.ofBits_zero_f32, zero_sub, half_word, two_word, Ideal.div_coe (by norm_num : (2 : ℝ) ≠ 0)]

/-- The distance of one sample row `xr` to one codebook row `wr`. -/
def cim (xr wr : Fin 512 → EReal) : EReal :=
  Ideal.sqrt ((Ideal.ofBits .f32 0x3F800000#32
      - Ideal.exp (Ideal.div
          (-(max (((∑ k : Fin 512, xr k * xr k) + (∑ k : Fin 512, wr k * wr k))
                    - Ideal.ofBits .f32 0x40000000#32 * (∑ k : Fin 512, xr k * wr k))
                 (Ideal.ofBits .f32 0x00000000#32)))
          (Ideal.ofBits .f32 0x40000000#32)))
    + Ideal.ofBits .f32 0x322BCC77#32)

/-- The whole result: entry (b, n) is the distance of sample row b to codebook row n. -/
def cimArray (x : (⟨2, ![2048, 512]⟩ : Shape).Idx → EReal) (w : (⟨2, ![16384, 512]⟩ : Shape).Idx → EReal) :
    (⟨2, ![2048, 16384]⟩ : Shape).Idx → EReal :=
  fun i => cim (fun k => x (ix2 (i 0) k)) (fun k => w (ix2 (i 1) k))

theorem cimArray_apply (x : (⟨2, ![2048, 512]⟩ : Shape).Idx → EReal) (w : (⟨2, ![16384, 512]⟩ : Shape).Idx → EReal)
    (b : Fin 2048) (n : Fin 16384) :
    cimArray x w (ix2 b n) = cim (fun k => x (ix2 b k)) (fun k => w (ix2 n k)) := rfl

end Cert.Cim

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.KernelPayload.lean ====
/-
  The kernel body's one store, read at an entry. A grid step loads a block of 256 sample rows and a block of 4096
  codebook rows (each row 512 features) and stores the [256, 4096] block whose entry (p, q) is the distance of sample
  row p to codebook row q.

  The body gets its three sums three ways: ‖x_p‖² as a lane reduction kept as a column and repeated along the row;
  ‖w_q‖² as a matrix product of a row of ones with the squared codebook block contracted on the feature axis (so each
  term is 1·w², and 1·y = y), kept as a row and repeated down the columns; ⟨x_p, w_q⟩ as the product of the sample
  block with the transposed codebook block. The narrowing to bf16 before the products is the identity on the
  extended reals. Each is read here at (p, q) as a sum over the 512 features, and the pointwise tail
  sqrt (1 - exp ((0 - max (· - 2·) 0) · ½) + ε) is then the row distance by the one scalar law (0 - y)·½ = (-y)/2.
-/
import proofs.«162800_j64536178590269_1_alg».proof.Proof.Gen.KernelIdeal.Skeleton
import proofs.«162800_j64536178590269_1_alg».proof.Proof.Spec
import proofs.«162800_j64536178590269_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The squared norm of a sample row, repeated along its row -/

/-- The lane sum of x·x over the features, recast as a column and broadcast along the 4096 columns. -/
def rowNorm (v0 : FVec Ideal S256x512 .f32) : FVec Ideal S256x4096 .f32 :=
  broadcastTo S256x4096
    (shapeCast S256x1 (multiReduction .add [1] S256 (mulf v0 v0) 0x00000000#32 reduces_S256x512_S256 (.inl rfl) rfl)
      shapeCasts_S256_S256x1)
    broadcasts_S256x1_S256x4096

/-- At (p, q) it is Σ_k x(p,k)², whatever the column q. -/
theorem rowNorm_apply (v0 : FVec Ideal S256x512 .f32) (p : Fin 256) (q : Fin 4096) :
    rowNorm v0 (ix2 p q) = ∑ k : Fin 512, v0 (ix2 p k) * v0 (ix2 p k) := by
  unfold rowNorm
  refine (Keepdims.broadcastTo_a1_ab_apply _ broadcasts_S256x1_S256x4096 p q).trans ?_
  refine (Keepdims.shapeCast_a_a1_apply _ shapeCasts_S256_S256x1 p 0).trans ?_
  refine (Ideal.multiReduction_add_single (mulf v0 v0) 0x00000000#32 reduces_S256x512_S256 (.inl rfl) rfl (ix1 p)).trans ?_
  refine Finset.sum_congr rfl fun (k : Fin 512) _ => ?_
  have e : reduces_S256x512_S256.lift (ix1 p) k = ix2 p k :=
    funext fun a => Fin.ext (by match a with | ⟨0, _⟩ => rfl | ⟨1, _⟩ => rfl)
  show (mulf v0 v0) (reduces_S256x512_S256.lift (ix1 p) k) = _
  rw [e]
  rfl

/-! ## The squared norm of a codebook row, repeated down its column -/

theorem lhs_ones_0 (i : S1x4096.Idx) (q : dot_S1x512_S4096x512_S1x4096_1_1_0_0_n_n.contr.Idx) :
    (dot_S1x512_S4096x512_S1x4096_1_1_0_0_n_n.lhsIdx i q 0).val = (i 0).val := by
  unfold DotDims.lhsIdx
  rw [dif_neg (show ¬(0 : Fin S1x512.rank) ∈ dot_S1x512_S4096x512_S1x4096_1_1_0_0_n_n.lhsBatch by decide), dif_pos (show (0 : Fin S1x512.rank) ∈ dot_S1x512_S4096x512_S1x4096_1_1_0_0_n_n.lhsNonContracting by decide)]
  rfl
theorem lhs_ones_1 (i : S1x4096.Idx) (q : dot_S1x512_S4096x512_S1x4096_1_1_0_0_n_n.contr.Idx) :
    (dot_S1x512_S4096x512_S1x4096_1_1_0_0_n_n.lhsIdx i q 1).val = (q ⟨0, by decide⟩).val :=
  dot_S1x512_S4096x512_S1x4096_1_1_0_0_n_n.lhsIdx_val_of_single rfl i q
theorem rhs_ones_0 (i : S1x4096.Idx) (q : dot_S1x512_S4096x512_S1x4096_1_1_0_0_n_n.contr.Idx) :
    (dot_S1x512_S4096x512_S1x4096_1_1_0_0_n_n.rhsIdx i q 0).val = (i 1).val := by
  unfold DotDims.rhsIdx
  rw [dif_neg (show ¬(0 : Fin S4096x512.rank) ∈ dot_S1x512_S4096x512_S1x4096_1_1_0_0_n_n.rhsBatch by decide), dif_pos (show (0 : Fin S4096x512.rank) ∈ dot_S1x512_S4096x512_S1x4096_1_1_0_0_n_n.rhsNonContracting by decide)]
  rfl
theorem rhs_ones_1 (i : S1x4096.Idx) (q : dot_S1x512_S4096x512_S1x4096_1_1_0_0_n_n.contr.Idx) :
    (dot_S1x512_S4096x512_S1x4096_1_1_0_0_n_n.rhsIdx i q 1).val = (q ⟨0, by decide⟩).val :=
  dot_S1x512_S4096x512_S1x4096_1_1_0_0_n_n.rhsIdx_val_of_single rfl i q

/-- The row of ones times the squared (bf16-narrowed) codebook block, contracted on the features, broadcast down the
    256 rows. -/
def colNorm (w : FVec Ideal S4096x512 .f32) : FVec Ideal S256x4096 .f32 :=
  broadcastTo S256x4096
    (matmul dot_S1x512_S4096x512_S1x4096_1_1_0_0_n_n none (broadcast S1x512 (Scalar.ofBits (F := Ideal) .bf16 0x3F80#16))
      (mulf (truncf .bf16 w bitsLt_bf16_f32) (truncf .bf16 w bitsLt_bf16_f32)) (constant S1x4096 .f32 0x00000000#32))
    broadcasts_S1x4096_S256x4096

/-- At (p, q) it is Σ_k w(q,k)², whatever the row p. -/
theorem colNorm_apply (w : FVec Ideal S4096x512 .f32) (p : Fin 256) (q : Fin 4096) :
    colNorm w (ix2 p q) = ∑ k : Fin 512, w (ix2 q k) * w (ix2 q k) := by
  unfold colNorm
  refine (broadcastTo_1b_ab_apply _ broadcasts_S1x4096_S256x4096 p q).trans ?_
  refine (Ideal.matmul_constant_zero_apply dot_S1x512_S4096x512_S1x4096_1_1_0_0_n_n none _ _ (ix2 (0 : Fin 1) q)).trans ?_
  rw [← Equiv.sum_comp (contrEquiv1 dot_S1x512_S4096x512_S1x4096_1_1_0_0_n_n 512 rfl rfl).symm]
  refine Finset.sum_congr rfl fun k _ => ?_
  have hk := contrEquiv1_symm_val dot_S1x512_S4096x512_S1x4096_1_1_0_0_n_n 512 rfl rfl k
  have er : dot_S1x512_S4096x512_S1x4096_1_1_0_0_n_n.rhsIdx (ix2 (0 : Fin 1) q) ((contrEquiv1 dot_S1x512_S4096x512_S1x4096_1_1_0_0_n_n 512 rfl rfl).symm k) = ix2 q k := funext fun a => Fin.ext (by
    match a with
    | ⟨0, _⟩ => exact rhs_ones_0 _ _
    | ⟨1, _⟩ => exact (rhs_ones_1 _ _).trans hk)
  rw [er]
  show Ideal.ofBits .bf16 0x3F80#16 * (w (ix2 q k) * w (ix2 q k)) = _
  rw [Cert.Cim.one_bf16_word, one_mul]

/-! ## The inner product of a sample row with a codebook row -/

theorem lhs_cross_0 (i : S256x4096.Idx) (q : dot_S256x512_S512x4096_S256x4096_1_0_0_1_n_n.contr.Idx) :
    (dot_S256x512_S512x4096_S256x4096_1_0_0_1_n_n.lhsIdx i q 0).val = (i 0).val := by
  unfold DotDims.lhsIdx
  rw [dif_neg (show ¬(0 : Fin S256x512.rank) ∈ dot_S256x512_S512x4096_S256x4096_1_0_0_1_n_n.lhsBatch by decide), dif_pos (show (0 : Fin S256x512.rank) ∈ dot_S256x512_S512x4096_S256x4096_1_0_0_1_n_n.lhsNonContracting by decide)]
  rfl
theorem lhs_cross_1 (i : S256x4096.Idx) (q : dot_S256x512_S512x4096_S256x4096_1_0_0_1_n_n.contr.Idx) :
    (dot_S256x512_S512x4096_S256x4096_1_0_0_1_n_n.lhsIdx i q 1).val = (q ⟨0, by decide⟩).val :=
  dot_S256x512_S512x4096_S256x4096_1_0_0_1_n_n.lhsIdx_val_of_single rfl i q
theorem rhs_cross_0 (i : S256x4096.Idx) (q : dot_S256x512_S512x4096_S256x4096_1_0_0_1_n_n.contr.Idx) :
    (dot_S256x512_S512x4096_S256x4096_1_0_0_1_n_n.rhsIdx i q 0).val = (q ⟨0, by decide⟩).val :=
  dot_S256x512_S512x4096_S256x4096_1_0_0_1_n_n.rhsIdx_val_of_single rfl i q
theorem rhs_cross_1 (i : S256x4096.Idx) (q : dot_S256x512_S512x4096_S256x4096_1_0_0_1_n_n.contr.Idx) :
    (dot_S256x512_S512x4096_S256x4096_1_0_0_1_n_n.rhsIdx i q 1).val = (i 1).val := by
  unfold DotDims.rhsIdx
  rw [dif_neg (show ¬(1 : Fin S512x4096.rank) ∈ dot_S256x512_S512x4096_S256x4096_1_0_0_1_n_n.rhsBatch by decide), dif_pos (show (1 : Fin S512x4096.rank) ∈ dot_S256x512_S512x4096_S256x4096_1_0_0_1_n_n.rhsNonContracting by decide)]
  rfl

/-- The (bf16-narrowed) sample block times the transposed (bf16-narrowed) codebook block. -/
def cross (v0 : FVec Ideal S256x512 .f32) (w : FVec Ideal S4096x512 .f32) : FVec Ideal S256x4096 .f32 :=
  matmul dot_S256x512_S512x4096_S256x4096_1_0_0_1_n_n none (truncf .bf16 v0 bitsLt_bf16_f32)
    (transpose S512x4096 [1, 0] (truncf .bf16 w bitsLt_bf16_f32) transposes_S4096x512_p1_0_S512x4096)
    (constant S256x4096 .f32 0x00000000#32)

/-- At (p, q) it is Σ_k x(p,k)·w(q,k). -/
theorem cross_apply (v0 : FVec Ideal S256x512 .f32) (w : FVec Ideal S4096x512 .f32) (p : Fin 256) (q : Fin 4096) :
    cross v0 w (ix2 p q) = ∑ k : Fin 512, v0 (ix2 p k) * w (ix2 q k) := by
  unfold cross
  refine (Ideal.matmul_constant_zero_apply dot_S256x512_S512x4096_S256x4096_1_0_0_1_n_n none _ _ (ix2 p q)).trans ?_
  rw [← Equiv.sum_comp (contrEquiv1 dot_S256x512_S512x4096_S256x4096_1_0_0_1_n_n 512 rfl rfl).symm]
  refine Finset.sum_congr rfl fun k _ => ?_
  have hk := contrEquiv1_symm_val dot_S256x512_S512x4096_S256x4096_1_0_0_1_n_n 512 rfl rfl k
  have el : dot_S256x512_S512x4096_S256x4096_1_0_0_1_n_n.lhsIdx (ix2 p q) ((contrEquiv1 dot_S256x512_S512x4096_S256x4096_1_0_0_1_n_n 512 rfl rfl).symm k) = ix2 p k := funext fun a => Fin.ext (by
    match a with
    | ⟨0, _⟩ => exact lhs_cross_0 _ _
    | ⟨1, _⟩ => exact (lhs_cross_1 _ _).trans hk)
  have er : dot_S256x512_S512x4096_S256x4096_1_0_0_1_n_n.rhsIdx (ix2 p q) ((contrEquiv1 dot_S256x512_S512x4096_S256x4096_1_0_0_1_n_n 512 rfl rfl).symm k) = ix2 k q := funext fun a => Fin.ext (by
    match a with
    | ⟨0, _⟩ => exact (rhs_cross_0 _ _).trans hk
    | ⟨1, _⟩ => exact rhs_cross_1 _ _)
  rw [el, er, transpose_ix2_apply]
  rfl

/-! ## The stored block at an entry -/

/-- The body's payload is the pointwise tail over the three sums (the loaded codebook block passes through a shape
    cast to its own shape first). -/
theorem pay_eq (v0 : Vec Ideal S256x512 .f32) (v1 : Vec Ideal S4096x512 .f32) :
    k0_pay1 (F := Ideal) v0 v1
      = sqrt (addf (subf (broadcast S256x4096 (Scalar.ofBits (F := Ideal) .f32 0x3F800000#32))
          (exp (mulf (subf (broadcast S256x4096 (Scalar.ofBits (F := Ideal) .f32 0x00000000#32))
            (maximumf (subf (addf (rowNorm v0) (colNorm (shapeCast S4096x512 v1 shapeCasts_S4096x512_S4096x512)))
                (mulf (broadcast S256x4096 (Scalar.ofBits (F := Ideal) .f32 0x40000000#32)) (cross v0 (shapeCast S4096x512 v1 shapeCasts_S4096x512_S4096x512))))
              (broadcast S256x4096 (Scalar.ofBits (F := Ideal) .f32 0x00000000#32))))
            (broadcast S256x4096 (Scalar.ofBits (F := Ideal) .f32 0x3F000000#32)))))
        (broadcast S256x4096 (Scalar.ofBits (F := Ideal) .f32 0x322BCC77#32))) := rfl

/-- THE STORED BLOCK AT (p, q): the distance of the block's sample row p to its codebook row q. -/
theorem pay_apply (v0 : Vec Ideal S256x512 .f32) (v1 : Vec Ideal S4096x512 .f32) (p : Fin 256) (q : Fin 4096) :
    k0_pay1 (F := Ideal) v0 v1 (ix2 p q) = Cert.Cim.cim (fun k => v0 (ix2 p k)) (fun k => v1 (ix2 q k)) := by
  rw [pay_eq, shapeCast_self]
  show Ideal.sqrt ((Ideal.ofBits .f32 0x3F800000#32
      - Ideal.exp ((Ideal.ofBits .f32 0x00000000#32
          - max ((rowNorm v0 (ix2 p q) + colNorm v1 (ix2 p q)) - Ideal.ofBits .f32 0x40000000#32 * cross v0 v1 (ix2 p q))
              (Ideal.ofBits .f32 0x00000000#32)) * Ideal.ofBits .f32 0x3F000000#32))
    + Ideal.ofBits .f32 0x322BCC77#32) = _
  rw [rowNorm_apply, colNorm_apply, cross_apply, Cert.Cim.zero_sub_mul_half]
  rfl

end Cert.KernelIdeal.Payload

end
-- ==== Proof.KernelBlocks.lean ====
/-
  From the stored blocks to the whole [2048, 16384] array of the kernel's one region.

  The grid is 4 × 8: the outer coordinate picks a block of 4096 codebook rows, the inner one a block of 256 sample rows;
  the output block at a step sits at (sample block, codebook block). So entry (p, q) of a step's stored block is entry
  (256·i + p, 4096·j + q) of the array, its sample row is row 256·i + p of the samples and its codebook row is row
  4096·j + q of the recast codebook: the stored block is the array of row distances read through the block. The 32
  output blocks tile the array (the block holding (b, n) is (b / 256, n / 4096)), so after the region the array is the
  array of row distances of the samples and the recast codebook as the region found them.
-/
import proofs.«162800_j64536178590269_1_alg».proof.Proof.Gen.KernelIdeal.Frame
import proofs.«162800_j64536178590269_1_alg».proof.Proof.KernelPayload
import proofs.«162800_j64536178590269_1_alg».proof.Proof.Spec
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem offsets_zero : (![0, 0] : Fin 2 → Nat) = fun _ => 0 := funext fun a => by fin_cases a <;> rfl

/-- The printed index maps over the grid: the sample window moves with the output's row blocks, the codebook window
    with its column blocks, neither moves along the features; 8 row blocks, 4 column blocks. -/
theorem index_maps : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 3 :=
  (by decide +kernel : ∀ t : Fin grid0.N, _)

/-- Every (row block, column block) pair is some step's output block. -/
theorem index_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- One entry of a stored block against one entry of the array of row distances: equal as soon as the block's sample
    row and codebook row are the array entry's rows. -/
theorem entry_eq (X : S2048x512.Idx → EReal) (W : S16384x512.Idx → EReal)
    (x0 : Vec Ideal S256x512 .f32) (x1 : Vec Ideal S4096x512 .f32) (j : S256x4096.Idx) (i : S2048x16384.Idx)
    (hx : ∀ k : Fin 512, x0 (ix2 (j 0) k) = X (ix2 (i 0) k))
    (hw : ∀ k : Fin 512, x1 (ix2 (j 1) k) = W (ix2 (i 1) k)) :
    k0_pay1 (F := Ideal) x0 x1 j = Cert.Cim.cimArray X W i := by
  obtain ⟨p, q, rfl⟩ : ∃ (p : Fin 256) (q : Fin 4096), j = ix2 p q := ⟨j 0, j 1, eq_ix2 j⟩
  obtain ⟨b, n, rfl⟩ : ∃ (b : Fin 2048) (n : Fin 16384), i = ix2 b n := ⟨i 0, i 1, eq_ix2 i⟩
  rw [Cert.KernelIdeal.Payload.pay_apply, Cert.Cim.cimArray_apply]
  have ex : (fun k : Fin 512 => x0 (ix2 p k)) = fun k => X (ix2 b k) := funext fun k => hx k
  have ew : (fun k : Fin 512 => x1 (ix2 q k)) = fun k => W (ix2 n k) := funext fun k => hw k
  rw [ex, ew]

/-- WHAT STEP `t` WRITES BACK is block `t` of the array of row distances of the arrays the region found. -/
theorem flushed_eq (c : Dev nD) (t : Fin cfg0.N) :
    (dats m 0 c).flushed 2 t
      = ((cfg0.win 2).blk t).view.read (Elt Ideal) (Cert.Cim.cimArray (V m c main_arg0) (V m c main_v0)) := by
  show (cfg0.win 2).cut (grid0.coords t) ((dats m 0 c).after 2 t) = _
  rw [after0_2]
  unfold out0_2
  rw [View.canon_unit_zero offsets_zero]
  simp only [View.ld_unit_zero (S := S256x512) offsets_zero, View.ld_unit_zero (S := S4096x512) offsets_zero]
  obtain ⟨e0, e1, e2, e3, e4, e5⟩ := index_maps t
  funext j
  show k0_pay1 (F := Ideal) (iblk m c 0 t) (iblk m c 1 t) j
    = Cert.Cim.cimArray (V m c main_arg0) (V m c main_v0) (((cfg0.win 2).blk t).view.emb j)
  refine entry_eq (V m c main_arg0) (V m c main_v0) (iblk m c 0 t) (iblk m c 1 t) j (((cfg0.win 2).blk t).view.emb j)
    (fun k => ?_) (fun k => ?_)
  · have h0 : ((cfg0.win 0).blk t).view.emb (ix2 (j 0) k) = ix2 ((((cfg0.win 2).blk t).view.emb j) 0) k := by
      funext a; apply Fin.ext
      match a with
      | ⟨0, _⟩ => show win0_0.index t (0 : Fin 2) * 256 + 1 * (j 0).val = win0_2.index t (0 : Fin 2) * 256 + 1 * (j 0).val; omega
      | ⟨1, _⟩ => show win0_0.index t (1 : Fin 2) * 512 + 1 * k.val = k.val; omega
    show V m c main_arg0 (((cfg0.win 0).blk t).view.emb (ix2 (j 0) k)) = _
    rw [h0]
    rfl
  · have h1 : ((cfg0.win 1).blk t).view.emb (ix2 (j 1) k) = ix2 ((((cfg0.win 2).blk t).view.emb j) 1) k := by
      funext a; apply Fin.ext
      match a with
      | ⟨0, _⟩ => show win0_1.index t (0 : Fin 2) * 4096 + 1 * (j 1).val = win0_2.index t (1 : Fin 2) * 4096 + 1 * (j 1).val; omega
      | ⟨1, _⟩ => show win0_1.index t (1 : Fin 2) * 512 + 1 * k.val = k.val; omega
    show V m c main_v0 (((cfg0.win 1).blk t).view.emb (ix2 (j 1) k)) = _
    rw [h1]
    rfl

/-- An index of the array is in step `t`'s output block iff each coordinate is in the block's range on its axis. -/
theorem mem_blk (t : Fin cfg0.N) (i : S2048x16384.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v1).slice (win0_2.rect t)).set ↔ _
  rw [View.set_slice_whole, Rect.mem_set_unit]
  exact Iff.rfl

/-- The output blocks tile the array: (b, n) is in the block of the step at (b / 256, n / 4096). -/
theorem covered (i : S2048x16384.Idx) :
    ∃ t : Fin cfg0.N, (cfg0.win 2).flush t = true ∧ i ∈ ((cfg0.win 2).blk t).view.set := by
  have hi0 : (i 0).val < 2048 := (i 0).isLt
  have hi1 : (i 1).val < 16384 := (i 1).isLt
  obtain ⟨t, ht⟩ := index_onto ⟨(i 0).val / 256, by omega⟩ ⟨(i 1).val / 4096, by omega⟩
  have q0 : win0_2.index t (0 : Fin 2) = (i 0).val / 256 := congrFun ht 0
  have q1 : win0_2.index t (1 : Fin 2) = (i 1).val / 4096 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- THE ARRAY after the region: the row distances of the sample array and the recast codebook the region found. -/
theorem final (c : Dev nD) :
    (dats m 0 c).arrAt 2 cfg0.N = Cert.Cim.cimArray (V m c main_arg0) (V m c main_v0) :=
  (dats m 0 c).arrAt_eq_of_cover 2 (Cert.Cim.cimArray (V m c main_arg0) (V m c main_v0))
    (fun t _ => flushed_eq m c t) covered

end Cert.KernelIdeal.Blocks

end
-- ==== Proof.KernelRun.lean ====
/-
  The kernel program's run, read: its result is the [2048, 128, 128] recast of the array of row distances of the samples
  and the [16384, 512] recast of the codebook.

  Before the region one host line recasts the [128, 128, 512] codebook as [16384, 512]; the samples reach the region as
  launched. After the region one host line recasts the region's [2048, 16384] array as [2048, 128, 128].
-/
import proofs.«162800_j64536178590269_1_alg».proof.Proof.Gen.KernelIdeal.Frame
import proofs.«162800_j64536178590269_1_alg».proof.Proof.KernelBlocks
import proofs.«162800_j64536178590269_1_alg».proof.Proof.Spec
import Idealize.ShloMosaic.Lib.Pipeline.Value
import Idealize.ShloMosaic.Lib.StableHlo.Run

noncomputable section

namespace Cert.KernelIdeal.RunValue

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The region finds the codebook recast as [16384, 512]. -/
theorem codebook_entry (c : Dev nD) :
    (V m c main_v0 : S16384x512.Idx → EReal)
      = shapeCast S16384x512 (m ((c : Thread nD τ).loc main_arg1)) shapeCasts_S128x128x512_S16384x512 := by
  show StableHlo.after hostOps0 (fun b => m (c, b)) (Proc.devRef .tc main_v0) = _
  after_results
  rfl

/-- The program's result as a function of the launch contents. -/
def result (c : Dev nD) : Buf (Elt Ideal) ((c : Thread nD τ).loc main_v2) :=
  shapeCast S2048x128x128
    (Cert.Cim.cimArray (m ((c : Thread nD τ).loc main_arg0))
      (shapeCast S16384x512 (m ((c : Thread nD τ).loc main_arg1)) shapeCasts_S128x128x512_S16384x512))
    shapeCasts_S2048x16384_S2048x128x128

/-- The line after the region recasts the region's array. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = Cert.Cim.cimArray (V m c main_arg0) (V m c main_v0) :=
    (Pipeline.withArrays_arr spec0 launch0.win.arr_inj c _ _ 2).trans (Cert.KernelIdeal.Blocks.final m c)
  rw [hw, V_main_arg0, codebook_entry]
  rfl

/-- THE RUN, READ: every weakly fair execution ends with the result array at the recast array of row distances and
    the two arguments as launched. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.RunValue

end
-- ==== Proof.RefValue.lean ====
/-
  The reference's [2048, 16384] array, before its last reshape, is the array of row distances.

  The reference computes ‖x_b‖² and ‖w_n‖² as host sums from the initial value 0 (and 0 + s = s), lays them along a
  column and a row, and takes ⟨x_b, w_n⟩ by one matrix product contracted on the feature axis of both operands. Its
  pointwise tail sqrt (1 - exp ((-(max (· - 2·) 0)) / 2) + ε) is the distance's own form. The codebook enters only
  through its [16384, 512] recast, which is left as it is: the kernel's side recasts it the same way.
-/
import proofs.«162800_j64536178590269_1_alg».proof.Proof.Gen.ReferenceIdeal.Run
import proofs.«162800_j64536178590269_1_alg».proof.Proof.Gen.ReferenceIdeal.Read
import proofs.«162800_j64536178590269_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- Entry (b, n) of the reference's distance array is the distance of sample row b to row n of the recast codebook. -/
theorem distances_eq (x0 : (⟨S2048x512, .f32⟩ : BufTy).Contents (Elt Ideal)) (x1 : (⟨S128x128x512, .f32⟩ : BufTy).Contents (Elt Ideal)) :
    val_main_v24 (F := Ideal) x0 x1 = Cert.Cim.cimArray x0 (val_main_v0 (F := Ideal) x1) := by
  funext i
  obtain ⟨b, n, rfl⟩ : ∃ (b : Fin 2048) (n : Fin 16384), i = ix2 b n := ⟨i 0, i 1, eq_ix2 i⟩
  have e1 : ∀ k : Fin 512, idx_main_v2 (idx_main_v6 (idx_main_v8 (ix2 b n))) k = ix2 b k := fun k =>
    funext fun a => Fin.ext (by match a with | ⟨0, _⟩ => rfl | ⟨1, _⟩ => rfl)
  have e2 : ∀ k : Fin 512, idx_main_v4 (idx_main_v7 (idx_main_v9 (ix2 b n))) k = ix2 n k := fun k =>
    funext fun a => Fin.ext (by match a with | ⟨0, _⟩ => rfl | ⟨1, _⟩ => rfl)
  have e3 : ∀ k : Fin 512, lidx_main_v5 (ix2 b n) k = ix2 b k := fun k =>
    funext fun a => Fin.ext (by match a with | ⟨0, _⟩ => rfl | ⟨1, _⟩ => rfl)
  have e4 : ∀ k : Fin 512, ridx_main_v5 (ix2 b n) k = ix2 n k := fun k =>
    funext fun a => Fin.ext (by match a with | ⟨0, _⟩ => rfl | ⟨1, _⟩ => rfl)
  rw [val_main_v24_apply, val_main_v23_apply, val_main_v22_apply, val_main_cst_5_apply, val_main_v21_apply,
    val_main_v20_apply, val_main_cst_4_apply, val_main_v19_apply, val_main_v18_apply, val_main_v17_apply,
    val_main_cst_3_apply, val_main_v16_apply, val_main_v15_apply, val_main_v14_apply, val_main_cst_2_apply,
    val_main_v13_apply, val_main_v12_apply, val_main_v11_apply, val_main_cst_1_apply, val_main_v10_apply,
    val_main_v9_apply, val_main_v8_apply, val_main_v7_apply, val_main_v6_apply, val_main_v5_apply,
    val_main_v4_apply, val_main_v2_apply, val_main_cst_0_apply, val_main_cst_apply]
  simp only [val_main_v3_apply, val_main_v1_apply, e1, e2, e3, e4, Cert.Cim.cimArray, Cert.Cim.cim,
    Ideal.ofBits_def, Ideal.mulf_def, Ideal.addf_def, Ideal.subf_def, Ideal.maximumf_def, Ideal.hostNegf_def,
    Ideal.negf_def, Ideal.hostDivf_def, Ideal.hostUnary_exp_def, Ideal.hostUnary_sqrt_def, Ideal.ofBits_zero_f32, zero_add]

end Cert.ReferenceIdeal.RefValue

end
-- ==== Proof.lean ====
/-
  The certificate of the correntropy-induced-distance kernel against its jnp reference.

  Both programs send x : [2048, 512] and a codebook w : [128, 128, 512], read as 16384 rows of 512 features, to the
  [2048, 128, 128] recast of the array whose entry (b, n) is

      sqrt (1 - exp (-(max (‖x_b‖² + ‖w_n‖² - 2·⟨x_b, w_n⟩) 0) / 2) + ε).

  The kernel computes it block by block over a 4 × 8 grid (4096 codebook rows by 256 sample rows a step); the
  reference computes the whole array at once. On the extended reals the two differ only in how the three sums are
  spelt (a lane sum, a product with a row of ones, a product with a transposed block, against host sums from 0 and one
  contracted product) and in the halving ((0 - y)·½ against (-y)/2); these agree on every extended real, so the
  precondition is not used by the value claim. The three frames are the generated ones; the idealization rewrote
  nothing, so there is nothing to preserve.
-/
import proofs.«162800_j64536178590269_1_alg».proof.Defs
import proofs.«162800_j64536178590269_1_alg».proof.Proof.Gen.Kernel
import proofs.«162800_j64536178590269_1_alg».proof.Proof.Gen.Kernel.Skeleton
import proofs.«162800_j64536178590269_1_alg».proof.Proof.Gen.Kernel.Launch
import proofs.«162800_j64536178590269_1_alg».proof.Proof.Gen.Kernel.Points
import proofs.«162800_j64536178590269_1_alg».proof.Proof.Gen.Kernel.Frame
import proofs.«162800_j64536178590269_1_alg».proof.Proof.Gen.KernelIdeal
import proofs.«162800_j64536178590269_1_alg».proof.Proof.Gen.KernelIdeal.Skeleton
import proofs.«162800_j64536178590269_1_alg».proof.Proof.Gen.KernelIdeal.Launch
import proofs.«162800_j64536178590269_1_alg».proof.Proof.Gen.KernelIdeal.Points
import proofs.«162800_j64536178590269_1_alg».proof.Proof.Gen.KernelIdeal.Frame
import proofs.«162800_j64536178590269_1_alg».proof.Proof.Gen.ReferenceIdeal
import proofs.«162800_j64536178590269_1_alg».proof.Proof.Gen.ReferenceIdeal.Run
import proofs.«162800_j64536178590269_1_alg».proof.Proof.Gen.ReferenceIdeal.Read
import proofs.«162800_j64536178590269_1_alg».proof.Proof.Gen.Pre_finite_inputs
import proofs.«162800_j64536178590269_1_alg».proof.Proof.KernelRun
import proofs.«162800_j64536178590269_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the recast array of row distances of the same samples and the same recast codebook. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2]
  unfold Cert.ReferenceIdeal.Read.val_main_v25
  rw [Cert.ReferenceIdeal.RefValue.distances_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
